-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x1x128 : Shape := ⟨3, ![16, 1, 128]⟩
abbrev S1x4096x3 : Shape := ⟨3, ![1, 4096, 3]⟩
abbrev S1x1x128 : Shape := ⟨3, ![1, 1, 128]⟩
abbrev S1x4096 : Shape := ⟨2, ![1, 4096]⟩
abbrev S1x1 : Shape := ⟨2, ![1, 1]⟩
abbrev S4096x3 : Shape := ⟨2, ![4096, 3]⟩
abbrev S3x4096 : Shape := ⟨2, ![3, 4096]⟩
abbrev S4096 : Shape := ⟨1, ![4096]⟩
abbrev S1x256x3 : Shape := ⟨3, ![1, 256, 3]⟩
abbrev S256x3 : Shape := ⟨2, ![256, 3]⟩
abbrev S256 : Shape := ⟨1, ![256]⟩
abbrev S256x1 : Shape := ⟨2, ![256, 1]⟩
abbrev S256x4096 : Shape := ⟨2, ![256, 4096]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x1x128, .f32⟩
  | .hbm, ⟨3, _⟩ => ⟨S16x1x1, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x4096x3, .f32⟩
  | .local _ .vmem, ⟨3, _⟩ => ⟨S1x4096x3, .f32⟩
  | .local _ .vmem, ⟨4, _⟩ => ⟨S1x1x128, .f32⟩
  | .local _ .vmem, ⟨5, _⟩ => ⟨S1x1x128, .f32⟩
  | .local _ .vmem, ⟨6, _⟩ => ⟨S1x4096, .f32⟩
  | .local _ .vmem, ⟨7, _⟩ => ⟨S1x1, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v14 : BitVec 32 := Scalar.addi c0_i32 c16_i32
  let c1_i32 : BitVec 32 := 1#32
  ⟨c0_i32, v14, c1_i32⟩
def k0_mult1 (k0_t1 : Fin k0_t1_loop.trips) : BitVec 32 :=
  let c0_i32_18 : BitVec 32 := 0#32
  let c0_i32 : BitVec 32 := 0#32
  let c1_i32 : BitVec 32 := 1#32
  let arg6 : BitVec 32 := Scf.iv c0_i32 c1_i32 k0_t1
  let c1_i32_17 : BitVec 32 := 1#32
  let v23 : BitVec 32 := Scalar.muli arg6 c1_i32_17
  let v24 : BitVec 32 := Scalar.addi c0_i32_18 v23
  let c256_i32 : BitVec 32 := 256#32
  let v25 : BitVec 32 := Scalar.muli v24 c256_i32
  v25
def k0_off1 (k0_t1 : Fin k0_t1_loop.trips) : Fin 3 → Nat :=
  let c0_19 : Index := 0#32
  let c0_i32_18 : BitVec 32 := 0#32
  let c0_i32 : BitVec 32 := 0#32
  let c1_i32 : BitVec 32 := 1#32
  let arg6 : BitVec 32 := Scf.iv c0_i32 c1_i32 k0_t1
  let c1_i32_17 : BitVec 32 := 1#32
  let v23 : BitVec 32 := Scalar.muli arg6 c1_i32_17
  let v24 : BitVec 32 := Scalar.addi c0_i32_18 v23
  let c256_i32 : BitVec 32 := 256#32
  let v25 : BitVec 32 := Scalar.muli v24 c256_i32
  let v26 : BitVec 32 := v25
  let v27 : Index := Scalar.indexCast v26
  let c0_20 : Index := 0#32
  ![0, v27.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  transposes_S4096x3_p1_0_S3x4096 : S4096x3.Transposes [1, 0] S3x4096
  reduces_S3x4096_S4096 : S3x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1x256x3 : 0 < S1x256x3.numel
  shapeCasts_S1x256x3_S256x3 : S1x256x3.ShapeCasts S256x3
  reduces_S256x3_S256 : S256x3.Reduces [1] S256
  shapeCasts_S256_S256x1 : S256.ShapeCasts S256x1
  broadcasts_S256x1_S256x4096 : S256x1.Broadcasts S256x4096
  broadcasts_S1x4096_S256x4096 : S1x4096.Broadcasts S256x4096
  reduces_S256x4096_S256 : S256x4096.Reduces [1] S256
  reduces_S256x4096_S4096 : S256x4096.Reduces [0] S4096
  reduces_S256x1_S1 : S256x1.Reduces [0] S1
  shapeCasts_S1_S1x1 : S1.ShapeCasts S1x1
  reduces_S1x4096_S1 : S1x4096.Reduces [1] S1
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  dot_S256x3_S3x4096_S256x4096_1_0_0_1_n_n_wf : DotDims.WF S256x3 S3x4096 S256x4096 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x3.size a ≤ S1x4096x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S16x4096x3.size a
  hwx0_0 : ∀ i : grid0.Coords, EltTy.bits .f32 = 32 ∨ (Rect.block (s := S16x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S16x4096x3.size a
  hwx0_1 : ∀ i : grid0.Coords, EltTy.bits .f32 = 32 ∨ (Rect.block (s := S16x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

def dot_S256x3_S3x4096_S256x4096_1_0_0_1_n_n : DotDims S256x3 S3x4096 S256x4096 where
  lhsContracting := [1]
  rhsContracting := [0]
  lhsNonContracting := [0]
  rhsNonContracting := [1]
  lhsBatch := []
  rhsBatch := []
  wf := dot_S256x3_S3x4096_S256x4096_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 31
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Spec.lean ====
/-
  The Hausdorff loss of two clouds of 4096 points with three coordinates, over the extended reals, with squared
  distances written as |p|² + |q|² − 2 p·q.

  For each point of the first cloud take the least squared distance to the second cloud, and the greatest of
  those; do the same with the roles exchanged; the loss is the larger of the two. A minimum is folded from a
  starting value I and a maximum from a starting value J, kept as the words both programs print.

  The second part is order theory: a running minimum (maximum) taken tile by tile over 16 tiles of 256 points,
  each tile's own minimum (maximum) folded from the same starting value, is the minimum (maximum) over all 4096
  points. Both are characterised by what lies below (above) them, so the starting value may be met many times.
-/
import Idealize.ShloMosaic.PureOps.Ideal.Laws
import Idealize.ShloMosaic.Lib.ValueIdx

noncomputable section

open scoped BigOperators

namespace Hausdorff

open Idealize.ShloMosaic

/-- The value every minimum starts from. -/
abbrev I : EReal := Ideal.ofBits .f32 0x7F800000#32
/-- The value every maximum starts from. -/
abbrev J : EReal := Ideal.ofBits .f32 0xFF800000#32
/-- The factor in front of the inner product. -/
abbrev two : EReal := Ideal.ofBits .f32 0x40000000#32

/-- |p|² + |q|² − 2 p·q, the squared distance of two points as both programs spell it. -/
def dist (p q : Fin 3 → EReal) : EReal := ((∑ k, p k * p k) + ∑ k, q k * q k) - two * ∑ k, p k * q k

/-- The least squared distance from p to a cloud. -/
def nearest (p : Fin 3 → EReal) (o : Fin 4096 → Fin 3 → EReal) : EReal :=
  Finset.univ.fold min I fun m => dist p (o m)

/-- The least squared distance from a cloud to q. -/
def nearestTo (a : Fin 4096 → Fin 3 → EReal) (q : Fin 3 → EReal) : EReal :=
  Finset.univ.fold min I fun n => dist (a n) q

/-- The loss: the larger of the two directed distances. -/
def loss (a o : Fin 4096 → Fin 3 → EReal) : EReal :=
  max (Finset.univ.fold max J fun n => nearest (a n) o) (Finset.univ.fold max J fun m => nearestTo a (o m))

/-! ## Sixteen tiles of 256 -/

/-- Point r of tile t. -/
def tileRow (t : Fin 16) (r : Fin 256) : Fin 4096 := ⟨256 * t.val + r.val, by omega⟩

theorem tileRow_val (t : Fin 16) (r : Fin 256) : (tileRow t r).val = 256 * t.val + r.val := rfl

/-- A running minimum over the tiles is the minimum over all points. -/
theorem runningMin_eq {α : Type*} [LinearOrder α] (i0 : α) (g : Fin 4096 → α) (A : ℕ → α) (h0 : A 0 = i0)
    (hs : ∀ t : Fin 16, A (t.val + 1) = min (A t.val) (Finset.univ.fold min i0 fun r => g (tileRow t r))) :
    A 16 = Finset.univ.fold min i0 g := by
  have key : ∀ t, t ≤ 16 → ∀ c, c ≤ A t ↔ c ≤ i0 ∧ ∀ n : Fin 4096, n.val < 256 * t → c ≤ g n := by
    intro t
    induction t with
    | zero =>
      intro _ c
      rw [h0]
      exact ⟨fun h => ⟨h, fun n hn => absurd hn (by omega)⟩, fun h => h.1⟩
    | succ t ih =>
      intro ht c
      rw [hs ⟨t, by omega⟩, le_min_iff, ih (by omega), Finset.le_fold_min]
      constructor
      · rintro ⟨⟨hI, h1⟩, _, h2⟩
        refine ⟨hI, fun n hn => ?_⟩
        by_cases hlt : n.val < 256 * t
        · exact h1 n hlt
        · have h3 := h2 ⟨n.val - 256 * t, by omega⟩ (Finset.mem_univ _)
          have e : tileRow ⟨t, by omega⟩ ⟨n.val - 256 * t, by omega⟩ = n := Fin.ext (by rw [tileRow_val]; show 256 * t + (n.val - 256 * t) = n.val; omega)
          rwa [e] at h3
      · rintro ⟨hI, h⟩
        exact ⟨⟨hI, fun n hn => h n (by omega)⟩, hI, fun r _ => h _ (by rw [tileRow_val]; show 256 * t + r.val < 256 * (t + 1); omega)⟩
  refine eq_of_forall_le_iff fun c => ?_
  rw [key 16 le_rfl, Finset.le_fold_min]
  exact ⟨fun h => ⟨h.1, fun n _ => h.2 n n.isLt⟩, fun h => ⟨h.1, fun n _ => h.2 n (Finset.mem_univ _)⟩⟩

/-- A running maximum over the tiles is the maximum over all points. -/
theorem runningMax_eq {α : Type*} [LinearOrder α] (j0 : α) (g : Fin 4096 → α) (B : ℕ → α) (h0 : B 0 = j0)
    (hs : ∀ t : Fin 16, B (t.val + 1) = max (B t.val) (Finset.univ.fold max j0 fun r => g (tileRow t r))) :
    B 16 = Finset.univ.fold max j0 g := by
  have key : ∀ t, t ≤ 16 → ∀ c, B t ≤ c ↔ j0 ≤ c ∧ ∀ n : Fin 4096, n.val < 256 * t → g n ≤ c := by
    intro t
    induction t with
    | zero =>
      intro _ c
      rw [h0]
      exact ⟨fun h => ⟨h, fun n hn => absurd hn (by omega)⟩, fun h => h.1⟩
    | succ t ih =>
      intro ht c
      rw [hs ⟨t, by omega⟩, max_le_iff, ih (by omega), Finset.fold_max_le]
      constructor
      · rintro ⟨⟨hI, h1⟩, _, h2⟩
        refine ⟨hI, fun n hn => ?_⟩
        by_cases hlt : n.val < 256 * t
        · exact h1 n hlt
        · have h3 := h2 ⟨n.val - 256 * t, by omega⟩ (Finset.mem_univ _)
          have e : tileRow ⟨t, by omega⟩ ⟨n.val - 256 * t, by omega⟩ = n := Fin.ext (by rw [tileRow_val]; show 256 * t + (n.val - 256 * t) = n.val; omega)
          rwa [e] at h3
      · rintro ⟨hI, h⟩
        exact ⟨⟨hI, fun n hn => h n (by omega)⟩, hI, fun r _ => h _ (by rw [tileRow_val]; show 256 * t + r.val < 256 * (t + 1); omega)⟩
  refine eq_of_forall_ge_iff fun c => ?_
  rw [key 16 le_rfl, Finset.fold_max_le]
  exact ⟨fun h => ⟨h.1, fun n _ => h.2 n n.isLt⟩, fun h => ⟨h.1, fun n _ => h.2 n (Finset.mem_univ _)⟩⟩

/-! ## The mean over the sixteen batches -/

variable {F : FTy → Type} [FloatOps F]

/-- The sum of sixteen losses from zero, divided by sixteen: the host operations both programs end with. -/
def mean16 (h1 : (⟨1, ![16]⟩ : Shape).ReducesTo [0] ⟨0, ![]⟩) (h2 : 0 < (⟨0, ![]⟩ : Shape).numel)
    (v : FVec F ⟨1, ![16]⟩ .f32) : FVec F ⟨0, ![]⟩ .f32 :=
  Host.divf (Host.reduceAdd v (constant (F := F) ⟨0, ![]⟩ .f32 0x00000000#32) h1 h2) (constant (F := F) ⟨0, ![]⟩ .f32 0x41800000#32)

end Hausdorff

end
-- ==== Proof.RefValue.lean ====
/-
  The reference's loss of batch b, read off its operations one at a time: the larger of the two directed
  distances between the b-th cloud of the first argument and the b-th cloud of the second.
-/
import proofs.«118591_j3006477107868_1_alg».proof.Proof.Gen.ReferenceIdeal.Read
import proofs.«118591_j3006477107868_1_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The table of squared distances -/

/-- Entry (b, n, m) of the table is |p|² + |q|² − 2 p·q for p the n-th point of the b-th first cloud and q the
    m-th point of the b-th second cloud: the two sums of squares start from the zero word, which is 0. -/
theorem dist12 (X Y : (⟨S16x4096x3, .f32⟩ : BufTy).Contents (Elt Ideal)) (b : Fin 16) (n m : Fin 4096) :
    val_main_v12 (F := Ideal) X Y (ix3 b n m)
      = Hausdorff.dist (fun k => X (ix3 b n k)) (fun k => Y (ix3 b m k)) := by
  rw [val_main_v12_apply, val_main_v9_apply, val_main_v11_apply, val_main_v7_apply, val_main_v5_apply,
    val_main_v1_apply, val_main_v8_apply, val_main_v6_apply, val_main_v3_apply, val_main_v10_apply,
    val_main_cst_1_apply, val_main_v4_apply, val_main_cst_apply, val_main_cst_0_apply]
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  simp only [e1, e2, e3, e4, val_main_v0_apply, val_main_v2_apply]
  show ((Ideal.ofBits .f32 0x00000000#32 + ∑ k, X (ix3 b n k) * X (ix3 b n k))
        + (Ideal.ofBits .f32 0x00000000#32 + ∑ k, Y (ix3 b m k) * Y (ix3 b m k)))
      - Hausdorff.two * ∑ k, X (ix3 b n k) * Y (ix3 b m k) = _
  rw [Ideal.ofBits_zero_f32, zero_add, zero_add]
  rfl

/-! ## Putting a coordinate back on the axis a minimum or maximum runs over -/

theorem red3_2 : S16x4096x4096.Reduces [2] S16x4096 := by decide
theorem red3_1 : S16x4096x4096.Reduces [1] S16x4096 := by decide
theorem red2_1 : S16x4096.Reduces [1] S16 := by decide

/-- Coordinate k put on the last axis over (b, n) gives (b, n, k). -/
theorem lift3_2 (b : Fin 16) (n : Fin 4096) (k : Fin (S16x4096x4096.size 2)) :
    red3_2.lift (ix2 b n) k = ix3 b n (⟨k.val, k.isLt⟩ : Fin 4096) := by
  funext a; apply Fin.ext
  fin_cases a <;> rfl

/-- Coordinate k put on the middle axis over (b, m) gives (b, k, m). -/
theorem lift3_1 (b : Fin 16) (m : Fin 4096) (k : Fin (S16x4096x4096.size 1)) :
    red3_1.lift (ix2 b m) k = ix3 b (⟨k.val, k.isLt⟩ : Fin 4096) m := by
  funext a; apply Fin.ext
  fin_cases a <;> rfl

/-- Coordinate k put on the last axis over b gives (b, k). -/
theorem lift2_1 (b : Fin 16) (k : Fin (S16x4096.size 1)) :
    red2_1.lift (ix1 b) k = ix2 b (⟨k.val, k.isLt⟩ : Fin 4096) := by
  funext a; apply Fin.ext
  fin_cases a <;> rfl

/-- A fold of minima of x along l is the fold of minima of any g that agrees with it point by point. -/
theorem fold_min_comp {ι : Type} {N : ℕ} (x : ι → EReal) (l : Fin N → ι) (g : Fin N → EReal) (i : EReal)
    (h : ∀ k, x (l k) = g k) :
    Finset.univ.fold (FloatOps.minimumf (F := Ideal) (φ := .f32)) i (x ∘ l) = Finset.univ.fold min i g :=
  Finset.fold_congr fun k _ => h k

/-- A fold of maxima of x along l is the fold of maxima of any g that agrees with it point by point. -/
theorem fold_max_comp {ι : Type} {N : ℕ} (x : ι → EReal) (l : Fin N → ι) (g : Fin N → EReal) (j : EReal)
    (h : ∀ k, x (l k) = g k) :
    Finset.univ.fold (FloatOps.maximumf (F := Ideal) (φ := .f32)) j (x ∘ l) = Finset.univ.fold max j g :=
  Finset.fold_congr fun k _ => h k

/-! ## The two directed distances -/

/-- The minimum of row (b, n) of the table is the least squared distance from the n-th point of the first cloud to
    the second cloud. -/
theorem v13_at (X Y : (⟨S16x4096x3, .f32⟩ : BufTy).Contents (Elt Ideal)) (b : Fin 16) (n : Fin 4096) :
    val_main_v13 (F := Ideal) X Y (ix2 b n)
      = Hausdorff.nearest (fun k => X (ix3 b n k)) (fun m k => Y (ix3 b m k)) := by
  unfold val_main_v13
  rw [Host.reduce_eq_fold_single FloatOps.minimumf _ _ reducesTo_S16x4096x4096_S16x4096_d2 red3_2 h_S_ (ix2 b n),
    val_main_cst_2_apply]
  exact fold_min_comp _ _ _ _ fun m =>
    (congrArg (val_main_v12 (F := Ideal) X Y) (lift3_2 b n m)).trans (dist12 X Y b n _)

/-- The minimum of column (b, m) of the table is the least squared distance from the first cloud to the m-th point
    of the second cloud. -/
theorem v14_at (X Y : (⟨S16x4096x3, .f32⟩ : BufTy).Contents (Elt Ideal)) (b : Fin 16) (m : Fin 4096) :
    val_main_v14 (F := Ideal) X Y (ix2 b m)
      = Hausdorff.nearestTo (fun n k => X (ix3 b n k)) (fun k => Y (ix3 b m k)) := by
  unfold val_main_v14
  rw [Host.reduce_eq_fold_single FloatOps.minimumf _ _ reducesTo_S16x4096x4096_S16x4096_d1 red3_1 h_S_ (ix2 b m),
    val_main_cst_3_apply]
  exact fold_min_comp _ _ _ _ fun n =>
    (congrArg (val_main_v12 (F := Ideal) X Y) (lift3_1 b m n)).trans (dist12 X Y b _ m)

/-- The greatest, over the points of the first cloud, of the least squared distance to the second cloud. -/
theorem v15_at (X Y : (⟨S16x4096x3, .f32⟩ : BufTy).Contents (Elt Ideal)) (b : Fin 16) :
    val_main_v15 (F := Ideal) X Y (ix1 b)
      = Finset.univ.fold max Hausdorff.J
          fun n => Hausdorff.nearest (fun k => X (ix3 b n k)) (fun m k => Y (ix3 b m k)) := by
  unfold val_main_v15
  rw [Host.reduce_eq_fold_single FloatOps.maximumf _ _ reducesTo_S16x4096_S16_d1 red2_1 h_S_ (ix1 b),
    val_main_cst_4_apply]
  exact fold_max_comp _ _ _ _ fun n =>
    (congrArg (val_main_v13 (F := Ideal) X Y) (lift2_1 b n)).trans (v13_at X Y b _)

/-- The greatest, over the points of the second cloud, of the least squared distance from the first cloud. -/
theorem v16_at (X Y : (⟨S16x4096x3, .f32⟩ : BufTy).Contents (Elt Ideal)) (b : Fin 16) :
    val_main_v16 (F := Ideal) X Y (ix1 b)
      = Finset.univ.fold max Hausdorff.J
          fun m => Hausdorff.nearestTo (fun n k => X (ix3 b n k)) (fun k => Y (ix3 b m k)) := by
  unfold val_main_v16
  rw [Host.reduce_eq_fold_single FloatOps.maximumf _ _ reducesTo_S16x4096_S16_d1 red2_1 h_S_ (ix1 b),
    val_main_cst_5_apply]
  exact fold_max_comp _ _ _ _ fun m =>
    (congrArg (val_main_v14 (F := Ideal) X Y) (lift2_1 b m)).trans (v14_at X Y b _)

/-- Entry b of the vector the reference averages is the loss of the b-th pair of clouds. -/
theorem loss_at (X Y : (⟨S16x4096x3, .f32⟩ : BufTy).Contents (Elt Ideal)) (b : Fin 16) :
    val_main_v17 (F := Ideal) X Y (ix1 b)
      = Hausdorff.loss (fun n k => X (ix3 b n k)) (fun m k => Y (ix3 b m k)) := by
  rw [val_main_v17_apply, v15_at, v16_at]
  rfl

end Cert.ReferenceIdeal.RefValue

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.Payloads.lean ====
/-
  What the kernel body's stores hold, entry by entry, over the extended reals: the two starting values, a tile's
  squared distances, the running column minimum, the running maximum of row minima, and the point's loss.
-/
import proofs.«118591_j3006477107868_1_alg».proof.Proof.Gen.KernelIdeal.Skeleton
import proofs.«118591_j3006477107868_1_alg».proof.Proof.Spec
import proofs.«118591_j3006477107868_1_alg».proof.Proof.LibRowLayers
import Idealize.ShloMosaic.PureOps.Reduce
import Idealize.ShloMosaic.Lib.ValueLayout

noncomputable section

open scoped BigOperators

namespace Cert.KernelIdeal.Payloads

open Cert.KernelIdeal Cert.KernelIdeal.Gen Idealize.ShloMosaic Idealize.ShloMosaic.ValueIdx

/-! ## Readings of single operations -/

/-- A minimum taken along one axis is the fold of min from the starting value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Putting row c back into the reduced index m of a reduction along the rows gives (c, m). -/
theorem lift_rows {k n : ℕ} (hred : (⟨2, ![k, n]⟩ : Shape).Reduces [0] ⟨1, ![n]⟩) (m : Fin n)
    (c : Fin ((⟨2, ![k, n]⟩ : Shape).size 0)) : hred.lift (ix1 m) c = ix2 (⟨c.val, c.isLt⟩ : Fin k) m := by
  funext a; apply Fin.ext
  fin_cases a <;> rfl

/-- A one-entry array cast to rank three reads its entry. -/
theorem shapeCast_11_111_apply {α : Type} (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) := by
  have hv : v = 0 := Fin.ext (by omega)
  have hw : w = 0 := Fin.ext (by omega)
  rw [hv, hw]
  exact shapeCast_ab_1ab_apply x h u 0 0

/-- A one-entry array broadcast along the last axis reads its entry everywhere. -/
theorem broadcastTo_111_11n_apply {α : Type} {n : ℕ} (x : (⟨3, ![1, 1, 1]⟩ : Shape).Idx → α)
    (h : (⟨3, ![1, 1, 1]⟩ : Shape).Broadcasts ⟨3, ![1, 1, n]⟩) (u v : Fin 1) (l : Fin n) :
    broadcastTo ⟨3, ![1, 1, n]⟩ x h (ix3 u v l) = x (ix3 (0 : Fin 1) (0 : Fin 1) (0 : Fin 1)) := by
  refine broadcastTo_apply x h (ix3 u v l) (ix3 (0 : Fin 1) (0 : Fin 1) (0 : Fin 1)) fun ax => ?_
  match ax with
  | ⟨0, _⟩ => rfl
  | ⟨1, _⟩ => rfl
  | ⟨2, _⟩ => rfl

/-! ## The three terms of a squared distance -/

/-- The sum of a column's squares: a reduction of x * x along the rows, read at column m. -/
theorem colSquares_apply {k n : ℕ} (hred : (⟨2, ![k, n]⟩ : Shape).Reduces [0] ⟨1, ![n]⟩) (hfmt : FKind.Formats FTy.f32)
    (hacc : (0x00000000#32 : BitVec FTy.f32.bits) = FKind.add.neutral .f32 hfmt)
    (x : FVec Ideal ⟨2, ![k, n]⟩ .f32) (m : Fin n) :
    multiReduction .add [0] ⟨1, ![n]⟩ (mulf x x) 0x00000000#32 hred hfmt hacc (ix1 m)
      = ∑ c : Fin k, x (ix2 c m) * x (ix2 c m) := by
  rw [Ideal.multiReduction_add_single]
  refine Finset.sum_congr rfl fun c _ => ?_
  rw [lift_rows]; rfl

/-! The coordinates the two factors are read at, for the entry i of the product and the position q along the contracted
    axis: the left factor at (i 0, q), the right factor at (q, i 1). -/

theorem lhs_dot_0 (i : S256x4096.Idx) (q : dot_S256x3_S3x4096_S256x4096_1_0_0_1_n_n.contr.Idx) :
    (dot_S256x3_S3x4096_S256x4096_1_0_0_1_n_n.lhsIdx i q 0).val = (i 0).val := by
  unfold DotDims.lhsIdx
  rw [dif_neg (show ¬(0 : Fin S256x3.rank) ∈ dot_S256x3_S3x4096_S256x4096_1_0_0_1_n_n.lhsBatch by decide), dif_pos (show (0 : Fin S256x3.rank) ∈ dot_S256x3_S3x4096_S256x4096_1_0_0_1_n_n.lhsNonContracting by decide)]
  rfl
theorem lhs_dot_1 (i : S256x4096.Idx) (q : dot_S256x3_S3x4096_S256x4096_1_0_0_1_n_n.contr.Idx) :
    (dot_S256x3_S3x4096_S256x4096_1_0_0_1_n_n.lhsIdx i q 1).val = (q ⟨0, by decide⟩).val :=
  dot_S256x3_S3x4096_S256x4096_1_0_0_1_n_n.lhsIdx_val_of_single rfl i q
theorem rhs_dot_0 (i : S256x4096.Idx) (q : dot_S256x3_S3x4096_S256x4096_1_0_0_1_n_n.contr.Idx) :
    (dot_S256x3_S3x4096_S256x4096_1_0_0_1_n_n.rhsIdx i q 0).val = (q ⟨0, by decide⟩).val :=
  dot_S256x3_S3x4096_S256x4096_1_0_0_1_n_n.rhsIdx_val_of_single rfl i q
theorem rhs_dot_1 (i : S256x4096.Idx) (q : dot_S256x3_S3x4096_S256x4096_1_0_0_1_n_n.contr.Idx) :
    (dot_S256x3_S3x4096_S256x4096_1_0_0_1_n_n.rhsIdx i q 1).val = (i 1).val := by
  unfold DotDims.rhsIdx
  rw [dif_neg (show ¬(1 : Fin S3x4096.rank) ∈ dot_S256x3_S3x4096_S256x4096_1_0_0_1_n_n.rhsBatch by decide), dif_pos (show (1 : Fin S3x4096.rank) ∈ dot_S256x3_S3x4096_S256x4096_1_0_0_1_n_n.rhsNonContracting by decide)]
  rfl

/-- The second cloud's block, cast to a matrix and transposed, reads at (k, m) coordinate k of point m. -/
theorem secondCloud_apply (v0 : Vec Ideal S1x4096x3 .f32) (k : Fin 3) (m : Fin 4096) :
    transpose S3x4096 [1, 0] (shapeCast S4096x3 v0 shapeCasts_S1x4096x3_S4096x3 : FVec Ideal S4096x3 .f32)
        transposes_S4096x3_p1_0_S3x4096 (ix2 k m)
      = v0 (ix3 (0 : Fin 1) m k) :=
  (transpose_ix2_apply _ _ k m).trans (shapeCast_1ab_ab_apply _ _ m k)

/-- Entry (r, m) of the product of a 256×3 matrix and a 3×4096 matrix, accumulated into zero: the inner product of
    row r and column m. -/
theorem matmul_entry (A : FVec Ideal S256x3 .f32) (B : FVec Ideal S3x4096 .f32) (r : Fin 256) (m : Fin 4096) :
    matmul dot_S256x3_S3x4096_S256x4096_1_0_0_1_n_n (some .fp32) A B (constant (F := Ideal) S256x4096 .f32 0x00000000#32) (ix2 r m)
      = ∑ k : Fin 3, A (ix2 r k) * B (ix2 k m) := by
  refine (Ideal.matmul_constant_zero_apply dot_S256x3_S3x4096_S256x4096_1_0_0_1_n_n (some .fp32) A B (ix2 r m)).trans ?_
  rw [← Equiv.sum_comp (contrEquiv1 dot_S256x3_S3x4096_S256x4096_1_0_0_1_n_n 3 rfl rfl).symm]
  refine Finset.sum_congr rfl fun k _ => ?_
  have hk := contrEquiv1_symm_val dot_S256x3_S3x4096_S256x4096_1_0_0_1_n_n 3 rfl rfl k
  have el : dot_S256x3_S3x4096_S256x4096_1_0_0_1_n_n.lhsIdx (ix2 r m) ((contrEquiv1 dot_S256x3_S3x4096_S256x4096_1_0_0_1_n_n 3 rfl rfl).symm k) = ix2 r k := funext fun a => Fin.ext (by
    match a with
    | ⟨0, _⟩ => exact lhs_dot_0 _ _
    | ⟨1, _⟩ => exact (lhs_dot_1 _ _).trans hk)
  have er : dot_S256x3_S3x4096_S256x4096_1_0_0_1_n_n.rhsIdx (ix2 r m) ((contrEquiv1 dot_S256x3_S3x4096_S256x4096_1_0_0_1_n_n 3 rfl rfl).symm k) = ix2 k m := funext fun a => Fin.ext (by
    match a with
    | ⟨0, _⟩ => exact (rhs_dot_0 _ _).trans hk
    | ⟨1, _⟩ => exact rhs_dot_1 _ _)
  rw [el, er]

/-! ## The stores -/

/-- The column accumulator starts at I everywhere. -/
theorem pay1_apply (m : Fin 4096) : k0_pay1 (F := Ideal) (ix2 (0 : Fin 1) m) = Hausdorff.I := by
  unfold k0_pay1
  rw [shapeCast_self]
  rfl

/-- The row accumulator starts at J. -/
theorem pay2_apply : k0_pay2 (F := Ideal) (ix2 (0 : Fin 1) (0 : Fin 1)) = Hausdorff.J := by
  unfold k0_pay2
  rw [shapeCast_self]
  rfl

/-- Entry (r, m) of a tile's distance matrix: the squared distance of the tile's point r and the second cloud's point m. -/
theorem pay3_apply (v0 : Vec Ideal S1x4096x3 .f32) (v28 : Vec Ideal S1x256x3 .f32) (r : Fin 256) (m : Fin 4096) :
    k0_pay3 v0 v28 (ix2 r m)
      = Hausdorff.dist (fun k => v28 (ix3 (0 : Fin 1) r k)) (fun k => v0 (ix3 (0 : Fin 1) m k)) := by
  unfold k0_pay3
  rw [subf_apply, addf_apply, mulf_apply, broadcast_apply, RowLayers.broadcastColumn_apply, RowLayers.column_apply,
    broadcastTo_1b_ab_apply, shapeCast_a_1a_apply, matmul_entry]
  erw [RowLayers.rowSquares_apply, colSquares_apply]
  unfold Hausdorff.dist
  refine congrArg₂ (· - ·) (congrArg₂ (· + ·) ?_ ?_) (congrArg (Hausdorff.two * ·) ?_)
  · exact Finset.sum_congr rfl fun k _ => by rw [shapeCast_1ab_ab_apply]
  · exact Finset.sum_congr rfl fun k _ => by rw [secondCloud_apply]
  · exact Finset.sum_congr rfl fun k _ => congrArg₂ (· * ·) (shapeCast_1ab_ab_apply _ _ r k) (secondCloud_apply v0 k m)

/-- The column accumulator after a tile: what it held, lowered by the tile's column minimum. -/
theorem pay4_apply (v0 : Vec Ideal S1x4096x3 .f32) (v28 : Vec Ideal S1x256x3 .f32) (v44 : Vec Ideal S1x4096 .f32) (m : Fin 4096) :
    k0_pay4 v0 v28 v44 (ix2 (0 : Fin 1) m)
      = min (v44 (ix2 (0 : Fin 1) m))
          (Finset.univ.fold min Hausdorff.I fun r : Fin 256 =>
            Hausdorff.dist (fun k => v28 (ix3 (0 : Fin 1) r k)) (fun k => v0 (ix3 (0 : Fin 1) m k))) := by
  unfold k0_pay4
  rw [shapeCast_self, minimumf_apply, shapeCast_a_1a_apply]
  erw [multiReduction_minimumf_single]
  refine congrArg (min _) (Finset.fold_congr fun r _ => ?_)
  exact (congrArg (k0_pay3 v0 v28) (lift_rows reduces_S256x4096_S4096 m r)).trans (pay3_apply v0 v28 r m)

/-- The row accumulator after a tile: what it held, raised by the largest of the tile's row minima. -/
theorem pay5_apply (v0 : Vec Ideal S1x4096x3 .f32) (v28 : Vec Ideal S1x256x3 .f32) (v51 : Vec Ideal S1x1 .f32) :
    k0_pay5 v0 v28 v51 (ix2 (0 : Fin 1) (0 : Fin 1))
      = max (v51 (ix2 (0 : Fin 1) (0 : Fin 1)))
          (Finset.univ.fold max Hausdorff.J fun r : Fin 256 =>
            Finset.univ.fold min Hausdorff.I fun m : Fin 4096 =>
              Hausdorff.dist (fun k => v28 (ix3 (0 : Fin 1) r k)) (fun k => v0 (ix3 (0 : Fin 1) m k))) := by
  unfold k0_pay5
  rw [shapeCast_self, maximumf_apply, shapeCast_a_1a_apply]
  erw [Ideal.multiReduction_maximumf_single]
  refine congrArg (max _) (Finset.fold_congr fun r _ => ?_)
  rw [Function.comp_apply, lift_rows, RowLayers.column_apply]
  erw [multiReduction_minimumf_single]
  refine Finset.fold_congr fun m _ => ?_
  exact (congrArg (k0_pay3 v0 v28) (RowLayers.lift_cols reduces_S256x4096_S256 r m)).trans (pay3_apply v0 v28 r m)

/-- Every lane of the output block: the row accumulator raised by the largest entry of the column accumulator. -/
theorem pay6_apply (v15 : Vec Ideal S1x4096 .f32) (v18 : Vec Ideal S1x1 .f32) (l : Fin 128) :
    k0_pay6 v15 v18 (ix3 (0 : Fin 1) (0 : Fin 1) l)
      = max (v18 (ix2 (0 : Fin 1) (0 : Fin 1)))
          (Finset.univ.fold max Hausdorff.J fun m : Fin 4096 => v15 (ix2 (0 : Fin 1) m)) := by
  unfold k0_pay6
  rw [broadcastTo_111_11n_apply, shapeCast_11_111_apply, maximumf_apply, shapeCast_a_1a_apply]
  erw [Ideal.multiReduction_maximumf_single]
  refine congrArg (max _) (Finset.fold_congr fun m _ => ?_)
  exact congrArg v15 (RowLayers.lift_cols reduces_S1x4096_S1 (0 : Fin 1) m)

end Cert.KernelIdeal.Payloads

end
-- ==== Proof.Body.lean ====
/-
  The kernel body at one grid point, read as a value.

  The body fills a column accumulator with I and a row accumulator with J, then visits the first cloud in 16 tiles
  of 256 points. Each visit lowers the column accumulator by the tile's column minima and raises the row accumulator
  by the largest of the tile's row minima. Afterwards every lane of the output block receives the larger of the row
  accumulator and the largest entry of the column accumulator.

  First, for any float instance: what the two accumulators hold after k tiles is a recursion over the stores' values
  (each store overwrites its whole buffer, so what is read back is the last value stored). Then, over the extended
  reals, the recursion after all 16 tiles is the minimum, respectively the maximum of minima, over all 4096 points,
  and the output block holds the loss of the two blocks' clouds in every lane.
-/
import proofs.«118591_j3006477107868_1_alg».proof.Proof.Gen.KernelIdeal.Frame
import proofs.«118591_j3006477107868_1_alg».proof.Proof.Payloads
import Idealize.ShloMosaic.Lib.Pipeline.Value
import Idealize.ShloMosaic.Lib.Tactic

set_option maxRecDepth 16384

noncomputable section

open scoped BigOperators

namespace Cert.KernelIdeal.Body

open Cert.KernelIdeal Cert.KernelIdeal.Gen Idealize.ShloMosaic Idealize.ShloMosaic.TcCoe Idealize.ShloMosaic.Tactic
open Idealize.SL.Sem Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Tile k of the first cloud's block: its 256 points from point 256 k on. -/
def tile (x0 : Vec F S1x4096x3 .f32) (k : Fin k0_t1_loop.trips) : Vec F S1x256x3 .f32 :=
  View.ld x0 (Rect.unit (s := S1x4096x3) (k0_off1 k) S1x256x3.size (k0_off1_inb k))

/-- The column and the row accumulator after k tiles. -/
def accs (x0 x1 : Vec F S1x4096x3 .f32) : ℕ → Vec F S1x4096 .f32 × Vec F S1x1 .f32
  | 0 => (k0_pay1, k0_pay2)
  | k + 1 =>
    if h : k < k0_t1_loop.trips then
      (k0_pay4 x1 (tile x0 ⟨k, h⟩) (accs x0 x1 k).1, k0_pay5 x1 (tile x0 ⟨k, h⟩) (accs x0 x1 k).2)
    else accs x0 x1 k

theorem accs_succ (x0 x1 : Vec F S1x4096x3 .f32) (k : ℕ) (h : k < k0_t1_loop.trips) :
    accs x0 x1 (k + 1)
      = (k0_pay4 x1 (tile x0 ⟨k, h⟩) (accs x0 x1 k).1, k0_pay5 x1 (tile x0 ⟨k, h⟩) (accs x0 x1 k).2) := by
  rw [accs.eq_2]; exact dif_pos h

/-- The store that fills the column accumulator with its starting value, -/
abbrev fill4 : View.Piece (Elt F) S1x4096 .f32 := ⟨Rect.unit (s := S1x4096) ![0, 0] S1x4096.size inb_S1x4096_S1x4096_0_0, k0_pay1⟩
/-- and the one that fills the row accumulator. -/
abbrev fill5 : View.Piece (Elt F) S1x1 .f32 := ⟨Rect.unit (s := S1x1) ![0, 0] S1x1.size inb_S1x1_S1x1_0_0, k0_pay2⟩

/-- One visit stores once into each accumulator: the new value computed from the tile loaded and from what the
    accumulator held. -/
theorem trip_pieces (𝒱 : Variants) (c : Dev nD) (bd : Option 𝒱.V) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x1x128 .f32) (harg3 : arg3.IsWhole) (arg4 : Memref sig .tc .vmem S1x4096 .f32) (harg4 : arg4.IsWhole) (arg5 : Memref sig .tc .vmem S1x1 .f32) (harg5 : arg5.IsWhole)
    (v0 : Vec F S1x4096x3 .f32) (X1 : BufTy.Contents (Elt F) arg1.view.ty) (k : Fin k0_t1_loop.trips)
    (f4 : BufTy.Contents (Elt F) arg4.view.ty) (f5 : BufTy.Contents (Elt F) arg5.view.ty) :
    tripL_k0_t1 (F := F) 𝒱 c bd i arg1 harg1 arg2 harg2 arg3 harg3 arg4 harg4 arg5 harg5 v0 X1 k f4 f5
      = ([⟨Rect.unit (s := S1x4096) ![0, 0] S1x4096.size inb_S1x4096_S1x4096_0_0,
            k0_pay4 v0 (View.readAt (Elt F) arg1.view (Rect.unit (s := S1x4096x3) (k0_off1 k) S1x256x3.size (k0_off1_inb k)).toLoadRect X1)
              (View.readAt (Elt F) arg4.view (Rect.unit (s := S1x4096) ![0, 0] S1x4096.size inb_S1x4096_S1x4096_0_0).toLoadRect f4)⟩],
         [⟨Rect.unit (s := S1x1) ![0, 0] S1x1.size inb_S1x1_S1x1_0_0,
            k0_pay5 v0 (View.readAt (Elt F) arg1.view (Rect.unit (s := S1x4096x3) (k0_off1 k) S1x256x3.size (k0_off1_inb k)).toLoadRect X1)
              (View.readAt (Elt F) arg5.view (Rect.unit (s := S1x1) ![0, 0] S1x1.size inb_S1x1_S1x1_0_0).toLoadRect f5)⟩]) := by
  unfold tripL_k0_t1 trip_k0_t1
  rfl

/-- What the accumulators hold after k visits, through the run's list of stores: the stores of the visits before k,
    last first, in front of the filling store, leave the recursion's value — each store covers its buffer. -/
theorem pb_canon (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x1x128 .f32) (harg3 : arg3.IsWhole) (arg4 : Memref sig .tc .vmem S1x4096 .f32) (harg4 : arg4.IsWhole) (arg5 : Memref sig .tc .vmem S1x1 .f32) (harg5 : arg5.IsWhole) (x0 x1 : Vec F S1x4096x3 .f32) :
    ∀ k, k ≤ k0_t1_loop.trips →
      View.canon ((pb_k0_t1 (F := F) Variants.none c none i arg1 harg1 arg2 harg2 arg3 harg3 arg4 harg4 arg5 harg5 x1 (harg1.unread x0)
          (arg4.view.writes (Elt F) arg4.view.junk [fill4]) (arg5.view.writes (Elt F) arg5.view.junk [fill5]) k).1 ++ [fill4])
        = (accs x0 x1 k).1
      ∧ View.canon ((pb_k0_t1 (F := F) Variants.none c none i arg1 harg1 arg2 harg2 arg3 harg3 arg4 harg4 arg5 harg5 x1 (harg1.unread x0)
          (arg4.view.writes (Elt F) arg4.view.junk [fill4]) (arg5.view.writes (Elt F) arg5.view.junk [fill5]) k).2 ++ [fill5])
        = (accs x0 x1 k).2 := by
  intro k
  induction k with
  | zero =>
    intro _
    exact ⟨View.canon_unit_zero hz2 _ _, View.canon_unit_zero hz2 _ _⟩
  | succ k ih =>
    intro hk
    have hlt : k < k0_t1_loop.trips := hk
    obtain ⟨ih1, ih2⟩ := ih (Nat.le_of_lt hlt)
    rw [pb_k0_t1.eq_2]
    unfold pb_k0_t1Step
    rw [dif_pos hlt, trip_pieces, accs_succ x0 x1 k hlt]
    dsimp only
    rw [← View.writes_append, ← View.writes_append, View.readAt_writes_junk_eq_canon, View.readAt_writes_junk_eq_canon, ih1, ih2]
    simp only [View.readAt_eq_ld, harg1.read_unread]
    refine ⟨?_, ?_⟩
    · rw [List.append_assoc, List.singleton_append, View.canon_cons_unit_zero (S := S1x4096) hz2]
      exact congrArg (k0_pay4 x1 (tile x0 ⟨k, hlt⟩)) (View.ld_unit_zero (S := S1x4096) hz2 _ (accs x0 x1 k).1)
    · rw [List.append_assoc, List.singleton_append, View.canon_cons_unit_zero (S := S1x1) hz2]
      exact congrArg (k0_pay5 x1 (tile x0 ⟨k, hlt⟩)) (View.ld_unit_zero (S := S1x1) hz2 _ (accs x0 x1 k).2)

/-- The output block the body leaves: every store before the last one feeds the accumulators, and the last one
    writes the whole block from what they hold after the last tile. -/
theorem out_eq (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x1x128 .f32) (harg3 : arg3.IsWhole) (arg4 : Memref sig .tc .vmem S1x4096 .f32) (harg4 : arg4.IsWhole) (arg5 : Memref sig .tc .vmem S1x1 .f32) (harg5 : arg5.IsWhole) (x0 x1 : Vec F S1x4096x3 .f32) :
    out0_A_2 c i arg1 harg1 arg2 harg2 arg3 harg3 arg4 harg4 arg5 harg5 x0 x1
      = k0_pay6 (accs x0 x1 k0_t1_loop.trips).1 (accs x0 x1 k0_t1_loop.trips).2 := by
  unfold out0_A_2
  rw [View.read_writes_eq_canon _ _ _ (cover0_A_2 c i arg1 harg1 arg2 harg2 arg3 harg3 arg4 harg4 arg5 harg5 x0 x1)]
  unfold kernelRun0_A
  dsimp only
  sl_unfold_words
  rw [View.canon_unit_zero hz3]
  simp only [View.readAt_eq_ld, harg2.read_unread, View.ld_unit_zero (S := S1x4096x3) hz3, View.read_writes_junk_eq_canon,
    View.ld_unit_zero (S := S1x4096) hz2, View.ld_unit_zero (S := S1x1) hz2]
  have hp := pb_canon c i arg1 harg1 arg2 harg2 arg3 harg3 arg4 harg4 arg5 harg5 x0 x1 k0_t1_loop.trips le_rfl
  exact congrArg₂ k0_pay6 hp.1 hp.2

/-! ## Over the extended reals -/

/-- The loop visits sixteen tiles. -/
theorem trips_eq : k0_t1_loop.trips = 16 := by decide +kernel

/-- Point n of the cloud a block holds. -/
def cloud (x : Vec Ideal S1x4096x3 .f32) (n : Fin 4096) (k : Fin 3) : EReal := x (ix3 (0 : Fin 1) n k)

/-- Point r of tile t is point 256 t + r of the block. -/
theorem tile_apply (x0 : Vec Ideal S1x4096x3 .f32) (t : ℕ) (ht : t < 16) (ht' : t < k0_t1_loop.trips) (r : Fin 256) (k : Fin 3) :
    tile x0 ⟨t, ht'⟩ (ix3 (0 : Fin 1) r k) = cloud x0 (Hausdorff.tileRow ⟨t, ht⟩ r) k := by
  unfold tile cloud
  show x0 _ = x0 _
  refine congrArg x0 (funext fun a => Fin.ext ?_)
  have e := k0_off1_eq ⟨t, ht'⟩
  match a with
  | ⟨0, _⟩ => show k0_off1 ⟨t, ht'⟩ 0 + 1 * 0 = 0; rw [e]; rfl
  | ⟨1, _⟩ => show k0_off1 ⟨t, ht'⟩ 1 + 1 * r.val = 256 * t + r.val; rw [e]; show 256 * t + 1 * r.val = 256 * t + r.val; omega
  | ⟨2, _⟩ => show k0_off1 ⟨t, ht'⟩ 2 + 1 * k.val = k.val; rw [e]; show 0 + 1 * k.val = k.val; omega

/-- After the last tile, entry m of the column accumulator is the least squared distance from the first cloud to
    point m of the second: a running minimum over the tiles is the minimum over all points. -/
theorem colAcc_final (x0 x1 : Vec Ideal S1x4096x3 .f32) (m : Fin 4096) :
    (accs x0 x1 k0_t1_loop.trips).1 (ix2 (0 : Fin 1) m) = Hausdorff.nearestTo (cloud x0) (cloud x1 m) := by
  rw [trips_eq]
  unfold Hausdorff.nearestTo
  refine Hausdorff.runningMin_eq Hausdorff.I (fun n => Hausdorff.dist (cloud x0 n) (cloud x1 m))
    (fun t => (accs x0 x1 t).1 (ix2 (0 : Fin 1) m)) ?_ ?_
  · exact Payloads.pay1_apply m
  · intro t
    have ht' : t.val < k0_t1_loop.trips := by rw [trips_eq]; exact t.isLt
    show (accs x0 x1 (t.val + 1)).1 (ix2 (0 : Fin 1) m) = _
    rw [accs_succ x0 x1 t.val ht']
    show k0_pay4 x1 (tile x0 ⟨t.val, ht'⟩) (accs x0 x1 t.val).1 (ix2 (0 : Fin 1) m) = _
    rw [Payloads.pay4_apply]
    refine congrArg (min _) (Finset.fold_congr fun r _ => ?_)
    exact congrArg₂ Hausdorff.dist (funext fun k => tile_apply x0 t.val t.isLt ht' r k) rfl

/-- After the last tile, the row accumulator is the greatest, over the first cloud's points, of the least squared
    distance to the second cloud: a running maximum over the tiles is the maximum over all points. -/
theorem rowAcc_final (x0 x1 : Vec Ideal S1x4096x3 .f32) :
    (accs x0 x1 k0_t1_loop.trips).2 (ix2 (0 : Fin 1) (0 : Fin 1))
      = Finset.univ.fold max Hausdorff.J fun n => Hausdorff.nearest (cloud x0 n) (cloud x1) := by
  rw [trips_eq]
  refine Hausdorff.runningMax_eq Hausdorff.J (fun n => Hausdorff.nearest (cloud x0 n) (cloud x1))
    (fun t => (accs x0 x1 t).2 (ix2 (0 : Fin 1) (0 : Fin 1))) ?_ ?_
  · exact Payloads.pay2_apply
  · intro t
    have ht' : t.val < k0_t1_loop.trips := by rw [trips_eq]; exact t.isLt
    show (accs x0 x1 (t.val + 1)).2 (ix2 (0 : Fin 1) (0 : Fin 1)) = _
    rw [accs_succ x0 x1 t.val ht']
    show k0_pay5 x1 (tile x0 ⟨t.val, ht'⟩) (accs x0 x1 t.val).2 (ix2 (0 : Fin 1) (0 : Fin 1)) = _
    rw [Payloads.pay5_apply]
    refine congrArg (max _) (Finset.fold_congr fun r _ => ?_)
    unfold Hausdorff.nearest
    refine Finset.fold_congr fun m _ => ?_
    exact congrArg₂ Hausdorff.dist (funext fun k => tile_apply x0 t.val t.isLt ht' r k) rfl

/-- Every lane of the output block the body leaves is the loss of the two blocks' clouds. -/
theorem out_apply (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x1x128 .f32) (harg3 : arg3.IsWhole) (arg4 : Memref sig .tc .vmem S1x4096 .f32) (harg4 : arg4.IsWhole) (arg5 : Memref sig .tc .vmem S1x1 .f32) (harg5 : arg5.IsWhole) (x0 x1 : Vec Ideal S1x4096x3 .f32) (l : Fin 128) :
    out0_A_2 (F := Ideal) c i arg1 harg1 arg2 harg2 arg3 harg3 arg4 harg4 arg5 harg5 x0 x1 (ix3 (0 : Fin 1) (0 : Fin 1) l)
      = Hausdorff.loss (cloud x0) (cloud x1) := by
  rw [out_eq, Payloads.pay6_apply, rowAcc_final]
  unfold Hausdorff.loss
  exact congrArg (max _) (Finset.fold_congr fun m _ => colAcc_final x0 x1 m)

/-- The block's two leading axes have one coordinate each, so the same holds at every index of the block. -/
theorem out_const (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x1x128 .f32) (harg3 : arg3.IsWhole) (arg4 : Memref sig .tc .vmem S1x4096 .f32) (harg4 : arg4.IsWhole) (arg5 : Memref sig .tc .vmem S1x1 .f32) (harg5 : arg5.IsWhole) (x0 x1 : Vec Ideal S1x4096x3 .f32) (j : S1x1x128.Idx) :
    out0_A_2 (F := Ideal) c i arg1 harg1 arg2 harg2 arg3 harg3 arg4 harg4 arg5 harg5 x0 x1 j = Hausdorff.loss (cloud x0) (cloud x1) := by
  obtain ⟨u, v, l, rfl⟩ : ∃ (u : Fin 1) (v : Fin 1) (l : Fin 128), j = ix3 u v l := ⟨j 0, j 1, j 2, eq_ix3 j⟩
  obtain rfl : u = 0 := Subsingleton.elim _ _
  obtain rfl : v = 0 := Subsingleton.elim _ _
  exact out_apply c i arg1 harg1 arg2 harg2 arg3 harg3 arg4 harg4 arg5 harg5 x0 x1 l

end Cert.KernelIdeal.Body

end
-- ==== Proof.KValue.lean ====
/-
  From the kernel's blocks to its result.

  Grid point t stages batch t of both arguments and writes row t of the output array, every lane of which is the
  loss of the two clouds staged. The sixteen rows tile the output array, so after the run row b holds the loss of
  batch b in every lane. The host operations after the region take lane 0 of each row, sum the sixteen numbers from
  zero and divide by sixteen.
-/
import proofs.«118591_j3006477107868_1_alg».proof.Proof.Body
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The loss of batch b of two arrays of sixteen clouds. -/
def batchLoss (X Y : S16x4096x3.Idx → EReal) (b : Fin 16) : EReal :=
  Hausdorff.loss (fun n k => X (ix3 b n k)) (fun n k => Y (ix3 b n k))

/-- The row of an output index, as a batch number. -/
def rowOf (i : S16x1x128.Idx) : Fin 16 := ⟨(i 0).val, (i 0).isLt⟩

/-- What the output array holds after the run: in every lane of row b the loss of batch b. -/
def G (X Y : S16x4096x3.Idx → EReal) : S16x1x128.Idx → EReal := fun i => batchLoss X Y (rowOf i)

/-- A grid point as a batch number. -/
def batchOf (t : Fin cfg0.N) : Fin 16 := ⟨t.val, Nat.lt_of_lt_of_eq t.isLt N_0⟩

/-- The printed index maps, decided over the sixteen points: every window is at block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The two input blocks at point t, at their literal type. -/
abbrev xblk (c : Dev nD) (t : Fin cfg0.N) : Vec Ideal S1x4096x3 .f32 := iblk m c 0 t
abbrev yblk (c : Dev nD) (t : Fin cfg0.N) : Vec Ideal S1x4096x3 .f32 := iblk m c 1 t

/-- The first block at point t is batch t of the first argument. -/
theorem xblk_apply (c : Dev nD) (t : Fin cfg0.N) (n : Fin 4096) (k : Fin 3) :
    Body.cloud (xblk m c t) n k = V m c main_arg0 (ix3 (batchOf t) n k) := by
  unfold Body.cloud xblk iblk
  rw [View.read_apply]
  show V m c main_arg0 _ = V m c main_arg0 _
  refine congrArg (V m c main_arg0) (funext fun a => Fin.ext ?_)
  obtain ⟨e0, e1, e2, -⟩ := idx_facts t
  match a with
  | ⟨0, _⟩ => show win0_0.index t (0 : Fin 3) * 1 + 1 * 0 = t.val; rw [e0]; omega
  | ⟨1, _⟩ => show win0_0.index t (1 : Fin 3) * 4096 + 1 * n.val = n.val; rw [e1]; omega
  | ⟨2, _⟩ => show win0_0.index t (2 : Fin 3) * 3 + 1 * k.val = k.val; rw [e2]; omega

/-- The second block at point t is batch t of the second argument. -/
theorem yblk_apply (c : Dev nD) (t : Fin cfg0.N) (n : Fin 4096) (k : Fin 3) :
    Body.cloud (yblk m c t) n k = V m c main_arg1 (ix3 (batchOf t) n k) := by
  unfold Body.cloud yblk iblk
  rw [View.read_apply]
  show V m c main_arg1 _ = V m c main_arg1 _
  refine congrArg (V m c main_arg1) (funext fun a => Fin.ext ?_)
  obtain ⟨-, -, -, e0, e1, e2, -⟩ := idx_facts t
  match a with
  | ⟨0, _⟩ => show win0_1.index t (0 : Fin 3) * 1 + 1 * 0 = t.val; rw [e0]; omega
  | ⟨1, _⟩ => show win0_1.index t (1 : Fin 3) * 4096 + 1 * n.val = n.val; rw [e1]; omega
  | ⟨2, _⟩ => show win0_1.index t (2 : Fin 3) * 3 + 1 * k.val = k.val; rw [e2]; omega

/-- What point t writes back is row t of G of the argument arrays as the region finds them. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2]
  unfold outsAt0
  funext j
  show out0_A_2 c (grid0.coords t) (ms0_0 t) (hs0_0 t) (ms0_1 t) (hs0_1 t) (ms0_2 t) (hs0_2 t) scM0_0 (Memref.isWhole_whole _) scM0_1 (Memref.isWhole_whole _) (iblk m c 0 t) (iblk m c 1 t) j
    = G (V m c main_arg0) (V m c main_arg1) (((cfg0.win 2).blk t).view.emb j)
  refine (Body.out_const c (grid0.coords t) (ms0_0 t) (hs0_0 t) (ms0_1 t) (hs0_1 t) (ms0_2 t) (hs0_2 t) scM0_0 (Memref.isWhole_whole _) scM0_1 (Memref.isWhole_whole _) (xblk m c t) (yblk m c t) j).trans ?_
  have hrow : rowOf (((cfg0.win 2).blk t).view.emb j) = batchOf t := by
    apply Fin.ext
    obtain ⟨-, -, -, -, -, -, e6, -⟩ := idx_facts t
    show win0_2.index t (0 : Fin 3) * 1 + 1 * (j 0).val = t.val
    have hj : (j 0).val < 1 := (j 0).isLt
    rw [e6]; omega
  unfold G batchLoss
  rw [hrow]
  exact congrArg₂ Hausdorff.loss (funext fun n => funext fun k => xblk_apply m c t n k)
    (funext fun n => funext fun k => yblk_apply m c t n k)

/-- An index of the output array is in point t's block iff each coordinate is in the block's range on its axis. -/
theorem mem_blk (t : Fin cfg0.N) (i : S16x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v0).slice (win0_2.rect t)).set ↔ _
  rw [View.set_slice_whole, Rect.mem_set_unit]
  exact Iff.rfl

/-- The output array after the run: the sixteen rows tile it, row b written at point b. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) fun i => by
    have h0 : (i 0).val < 16 := (i 0).isLt
    have h1 : (i 1).val < 1 := (i 1).isLt
    have h2 : (i 2).val < 128 := (i 2).isLt
    refine ⟨⟨(i 0).val, by rw [show cfg0.N = 16 from N_0]; exact h0⟩, flush0_2 _, ?_⟩
    rw [mem_blk]
    obtain ⟨-, -, -, -, -, -, e6, e7, e8⟩ := idx_facts ⟨(i 0).val, by rw [show cfg0.N = 16 from N_0]; exact h0⟩
    intro a
    match a with
    | ⟨0, _⟩ =>
      show win0_2.index _ (0 : Fin 3) * 1 ≤ (i 0).val ∧ (i 0).val < win0_2.index _ (0 : Fin 3) * 1 + 1
      rw [e6]; show (i 0).val * 1 ≤ (i 0).val ∧ (i 0).val < (i 0).val * 1 + 1; omega
    | ⟨1, _⟩ =>
      show win0_2.index _ (1 : Fin 3) * 1 ≤ (i 1).val ∧ (i 1).val < win0_2.index _ (1 : Fin 3) * 1 + 1
      rw [e7]; omega
    | ⟨2, _⟩ =>
      show win0_2.index _ (2 : Fin 3) * 128 ≤ (i 2).val ∧ (i 2).val < win0_2.index _ (2 : Fin 3) * 128 + 128
      rw [e8]; omega

/-- The vector the host operations after the region average: entry b is the loss of batch b. -/
def losses (X Y : S16x4096x3.Idx → EReal) : FVec Ideal ⟨1, ![16]⟩ .f32 := fun j => batchLoss X Y ⟨(j 0).val, (j 0).isLt⟩

/-- Lane 0 of each row of the output array, as a vector of sixteen: the slice and the reshape read at an index. -/
theorem lane0_eq (X Y : S16x4096x3.Idx → EReal) :
    shapeCast S16 (extractStridedSlice S16x1x1 ![0, 0, 0] (G X Y) slices_S16x1x128_S16x1x1_0_0_0) shapeCasts_S16x1x1_S16
      = losses X Y := by
  funext i
  obtain ⟨b, rfl⟩ : ∃ b : Fin 16, i = ix1 b := ⟨i 0, eq_ix1 i⟩
  rw [shapeCast_apply _ shapeCasts_S16x1x1_S16 (ix1 b) (ix3 b (0 : Fin 1) (0 : Fin 1)) (by
    rw [Shape.rowMajor_val_three, Shape.rowMajor_val_one]
    show (b.val * 1 + 0) * 1 + 0 = b.val
    omega)]
  rw [extractStridedSlice_apply ![0, 0, 0] (G X Y) slices_S16x1x128_S16x1x1_0_0_0 (ix3 b (0 : Fin 1) (0 : Fin 1))
    (ix3 b (0 : Fin 1) (0 : Fin 128)) (fun a => by
      match a with
      | ⟨0, _⟩ => show b.val = 0 + b.val; omega
      | ⟨1, _⟩ => rfl
      | ⟨2, _⟩ => rfl)]
  rfl

/-- The result of @main: the host operations after the region applied to the output array. -/
theorem tail_eq (c : Dev nD) :
    Pipeline.afterTail₀ cfgs (dats m) 0 (V0 m) [hostOps1] c main_v4
      = Hausdorff.mean16 reducesTo_S16_S_d0 h_S_ (losses (V m c main_arg0) (V m c main_arg1)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v0)
      = G (V m c main_arg0) (V m c main_arg1) :=
    (Pipeline.withArrays_arr spec0 launch0.win.arr_inj c _ _ 2).trans (final m c)
  rw [e]
  unfold Hausdorff.mean16
  exact congrArg (fun v => Host.divf (Host.reduceAdd v (constant S_ .f32 0x00000000#32) reducesTo_S16_S_d0 h_S_)
    (constant S_ .f32 0x41800000#32)) (lane0_eq (V m c main_arg0) (V m c main_arg1))

/-- The run, read: the result at the mean of the sixteen losses of the argument arrays, the arguments unchanged. -/
theorem run : θ_run defs (onTc (τ := τ) (main (F := Ideal))) ⟨m, fun _ => 0, ρ⟩ fun r => ∀ c : Dev nD,
      r.2.mem ((c.tc : Thread nD τ).loc main_v4)
        = Hausdorff.mean16 reducesTo_S16_S_d0 h_S_
            (losses (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v4 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The kernel computes, for each of sixteen batches, the Hausdorff loss of two clouds of 4096 points in three
  coordinates — squared distances written |p|² + |q|² − 2 p·q, the first cloud visited in sixteen tiles of 256 points
  with a running column minimum and a running maximum of row minima kept in scratch — and @main averages the sixteen
  losses. The reference builds the whole 4096 × 4096 table of squared distances per batch, takes its row and column
  minima, the two maxima of those, the larger of the two, and the same average.

  Over the extended reals the two are one function of the arguments. Entry by entry the tile's distances are the
  table's (the same sums of three products, the same constant 2). A running minimum over the tiles, each tile's
  minimum folded from the same starting value, is the minimum over all points, and likewise for the maximum: both
  are determined by what lies below, respectively above, them, so nothing about the starting values is used beyond
  their being the same words on both sides. No finiteness of the inputs is needed.

  The three frames: the kernel's two are its generated frame runs; the reference's is its generated run with the
  result dropped. The idealization rewrote nothing.
-/
import proofs.«118591_j3006477107868_1_alg».proof.Defs
import proofs.«118591_j3006477107868_1_alg».proof.Proof.Gen.Kernel
import proofs.«118591_j3006477107868_1_alg».proof.Proof.Gen.Kernel.Skeleton
import proofs.«118591_j3006477107868_1_alg».proof.Proof.Gen.Kernel.Loops
import proofs.«118591_j3006477107868_1_alg».proof.Proof.Gen.Kernel.Launch
import proofs.«118591_j3006477107868_1_alg».proof.Proof.Gen.Kernel.Points
import proofs.«118591_j3006477107868_1_alg».proof.Proof.Gen.Kernel.Frame
import proofs.«118591_j3006477107868_1_alg».proof.Proof.Gen.KernelIdeal
import proofs.«118591_j3006477107868_1_alg».proof.Proof.Gen.KernelIdeal.Skeleton
import proofs.«118591_j3006477107868_1_alg».proof.Proof.Gen.KernelIdeal.Loops
import proofs.«118591_j3006477107868_1_alg».proof.Proof.Gen.KernelIdeal.Launch
import proofs.«118591_j3006477107868_1_alg».proof.Proof.Gen.KernelIdeal.Points
import proofs.«118591_j3006477107868_1_alg».proof.Proof.Gen.KernelIdeal.Frame
import proofs.«118591_j3006477107868_1_alg».proof.Proof.Gen.ReferenceIdeal
import proofs.«118591_j3006477107868_1_alg».proof.Proof.Gen.ReferenceIdeal.Run
import proofs.«118591_j3006477107868_1_alg».proof.Proof.Gen.ReferenceIdeal.Read
import proofs.«118591_j3006477107868_1_alg».proof.Proof.Gen.Pre_finite_inputs
import proofs.«118591_j3006477107868_1_alg».proof.Proof.RefValue
import proofs.«118591_j3006477107868_1_alg».proof.Proof.KValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result is the mean of the sixteen losses: entry b of the vector it averages is the loss of
    batch b, and the sum from zero and the division by sixteen are the operations the kernel's @main ends with. -/
theorem ref_result (X Y : (⟨Cert.ReferenceIdeal.S16x4096x3, .f32⟩ : BufTy).Contents (Elt Ideal)) :
    Cert.ReferenceIdeal.Read.val_main_v19 (F := Ideal) X Y
      = Hausdorff.mean16 Cert.KernelIdeal.Gen.reducesTo_S16_S_d0 Cert.KernelIdeal.Gen.h_S_ (Cert.KernelIdeal.KValue.losses X Y) := by
  have e : Cert.ReferenceIdeal.Read.val_main_v17 (F := Ideal) X Y = Cert.KernelIdeal.KValue.losses X Y := funext fun j => by
    obtain ⟨b, rfl⟩ : ∃ b : Fin 16, j = ix1 b := ⟨j 0, eq_ix1 j⟩
    exact Cert.ReferenceIdeal.RefValue.loss_at X Y b
  unfold Cert.ReferenceIdeal.Read.val_main_v19 Cert.ReferenceIdeal.Read.val_main_v18
  rw [e]
  rfl

/-- Both programs, run from memories that agree on the two arguments, end with the mean of the sixteen losses of the
    same arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v19_eq]
  exact ref_result _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
